-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S512x4096 .f32) (main_arg1 : IVec S11008x2048 32) (main_arg2 : FVec F S11008x32 .f32) (main_arg3 : FVec F S11008x32 .f32) (main_arg4 : FVec F S11008 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S512x4096 : Shape := ⟨2, ![512, 4096]⟩
abbrev S11008x2048 : Shape := ⟨2, ![11008, 2048]⟩
abbrev S11008x32 : Shape := ⟨2, ![11008, 32]⟩
abbrev S11008 : Shape := ⟨1, ![11008]⟩
abbrev S512x2048x2 : Shape := ⟨3, ![512, 2048, 2]⟩
abbrev S512x2048x1 : Shape := ⟨3, ![512, 2048, 1]⟩
abbrev S512x2048 : Shape := ⟨2, ![512, 2048]⟩
abbrev S512x32x128 : Shape := ⟨3, ![512, 32, 128]⟩
abbrev S_ : Shape := ⟨0, ![]⟩
abbrev S512x32 : Shape := ⟨2, ![512, 32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S32x2048 : Shape := ⟨2, ![32, 2048]⟩
abbrev S512x11008 : Shape := ⟨2, ![512, 11008]⟩
abbrev S256x2048 : Shape := ⟨2, ![256, 2048]⟩
abbrev S256x32 : Shape := ⟨2, ![256, 32]⟩
abbrev S256 : Shape := ⟨1, ![256]⟩
abbrev S512x256 : Shape := ⟨2, ![512, 256]⟩
abbrev S1x256 : Shape := ⟨2, ![1, 256]⟩

abbrev nBuf : Space → Nat
  | .hbm => 42
  | .vmem => 14
  | .smem => 0
  | _ => 0

abbrev bufTy : (tb : Table) → Fin (tcTables nBuf tb) → BufTy
  | .hbm, ⟨0, _⟩ => ⟨S512x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S512x2048x2, .f32⟩
  | .hbm, ⟨6, _⟩ => ⟨S512x2048x1, .f32⟩
  | .hbm, ⟨7, _⟩ => ⟨S512x2048, .f32⟩
  | .hbm, ⟨8, _⟩ => ⟨S512x2048, .bf16⟩
  | .hbm, ⟨9, _⟩ => ⟨S512x2048x1, .f32⟩
  | .hbm, ⟨10, _⟩ => ⟨S512x2048, .f32⟩
  | .hbm, ⟨11, _⟩ => ⟨S512x2048, .bf16⟩
  | .hbm, ⟨12, _⟩ => ⟨S512x32x128, .f32⟩
  | .hbm, ⟨13, _⟩ => ⟨S_, .f32⟩
  | .hbm, ⟨14, _⟩ => ⟨S512x32, .f32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S1x32, .i32⟩
  | .hbm, ⟨36, _⟩ => ⟨S2048x32, .i32⟩
  | .hbm, ⟨37, _⟩ => ⟨S2048x32, .i32⟩
  | .hbm, ⟨38, _⟩ => ⟨S2048x32, .i1⟩
  | .hbm, ⟨39, _⟩ => ⟨S2048x32, .bf16⟩
  | .hbm, ⟨40, _⟩ => ⟨S32x2048, .bf16⟩
  | .hbm, ⟨41, _⟩ => ⟨S512x11008, .f32⟩
  | .local _ .vmem, ⟨0, _⟩ => ⟨S512x2048, .bf16⟩
  | .local _ .vmem, ⟨1, _⟩ => ⟨S512x2048, .bf16⟩
  | .local _ .vmem, ⟨2, _⟩ => ⟨S512x32, .f32⟩
  | .local _ .vmem, ⟨3, _⟩ => ⟨S256x2048, .i32⟩
  | .local _ .vmem, ⟨4, _⟩ => ⟨S256x2048, .i32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256, .f32⟩
  | .local _ .vmem, ⟨10, _⟩ => ⟨S256, .f32⟩
  | .local _ .vmem, ⟨11, _⟩ => ⟨S32x2048, .bf16⟩
  | .local _ .vmem, ⟨12, _⟩ => ⟨S512x256, .f32⟩
  | .local _ .vmem, ⟨13, _⟩ => ⟨S512x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S512x4096_S512x2048x2 : S512x4096.ShapeCasts S512x2048x2
  slices_S512x2048x2_S512x2048x1_0_0_0 : S512x2048x2.Slices ![0, 0, 0] S512x2048x1
  shapeCasts_S512x2048x1_S512x2048 : S512x2048x1.ShapeCasts S512x2048
  bitsLt_bf16_f32 : FTy.bits .bf16 < FTy.bits .f32
  slices_S512x2048x2_S512x2048x1_0_0_1 : S512x2048x2.Slices ![0, 0, 1] S512x2048x1
  shapeCasts_S512x4096_S512x32x128 : S512x4096.ShapeCasts S512x32x128
  reducesTo_S512x32x128_S512x32_d2 : S512x32x128.ReducesTo [2] S512x32
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  transposes_S2048x32_S32x2048_1_0 : S2048x32.Transposes [1, 0] S32x2048
  inb_S256x2048_S256x2048_0_0 : ∀ a, (![0, 0] : Fin 2 → Nat) a + S256x2048.size a ≤ S256x2048.size a
  h_S256x2048 : 0 < S256x2048.numel
  inb_S256x32_S256x32_0_0 : ∀ a, (![0, 0] : Fin 2 → Nat) a + S256x32.size a ≤ S256x32.size a
  h_S256x32 : 0 < S256x32.numel
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S256x32_S32x2048_S256x2048_1_0_0_1_n_n_wf : DotDims.WF S256x32 S32x2048 S256x2048 [1] [0] [0] [1] [] []
  dot_S512x2048_S256x2048_S512x256_1_1_0_0_n_n_wf : DotDims.WF S512x2048 S256x2048 S512x256 [1] [1] [0] [0] [] []
  dot_S512x32_S256x32_S512x256_1_1_0_0_n_n_wf : DotDims.WF S512x32 S256x32 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S11008x2048.size a
  hwx0_3 : ∀ i : grid0.Coords, EltTy.bits .i32 = 32 ∨ (Rect.block (s := S11008x2048) S256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S11008x32.size a
  hwx0_4 : ∀ i : grid0.Coords, EltTy.bits .f32 = 32 ∨ (Rect.block (s := S11008x32) S256x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S11008x32.size a
  hwx0_5 : ∀ i : grid0.Coords, EltTy.bits .f32 = 32 ∨ (Rect.block (s := S11008x32) S256x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S11008.size a
  hwx0_6 : ∀ i : grid0.Coords, EltTy.bits .f32 = 32 ∨ (Rect.block (s := S11008) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x2048.size a ≤ S32x2048.size a
  hwx0_7 : ∀ i : grid0.Coords, EltTy.bits .bf16 = 32 ∨ (Rect.block (s := S32x2048) S32x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x11008.size a
  hwx0_8 : ∀ i : grid0.Coords, EltTy.bits .f32 = 32 ∨ (Rect.block (s := S512x11008) S512x256.size (cc0_transform_8 i) (hinb0_8 i)).WholeWords (EltTy.packing .f32)

variable [Facts₀]

def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x32_S256x32_S512x256_1_1_0_0_n_n : DotDims S512x32 S256x32 S512x256 where
  lhsContracting := [1]
  rhsContracting := [1]
  lhsNonContracting := [0]
  rhsNonContracting := [0]
  lhsBatch := []
  rhsBatch := []
  wf := dot_S512x32_S256x32_S512x256_1_1_0_0_n_n_wf

abbrev win0_0 : Pipeline.Window sig grid0 :=
  Pipeline.Window.ofSpec (Memref.whole main_v3) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S32x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x4096 : Shape := ⟨2, ![512, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S512x11008 : Shape := ⟨2, ![512, 11008]⟩
abbrev S1x11008 : Shape := ⟨2, ![1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S_, .i32⟩
  | .hbm, ⟨6, _⟩ => ⟨S11008x2048, .i32⟩
  | .hbm, ⟨7, _⟩ => ⟨S11008x2048, .i32⟩
  | .hbm, ⟨8, _⟩ => ⟨S_, .i32⟩
  | .hbm, ⟨9, _⟩ => ⟨S11008x2048, .i32⟩
  | .hbm, ⟨10, _⟩ => ⟨S11008x2048, .i32⟩
  | .hbm, ⟨11, _⟩ => ⟨S_, .i32⟩
  | .hbm, ⟨12, _⟩ => ⟨S11008x2048, .i32⟩
  | .hbm, ⟨13, _⟩ => ⟨S11008x2048, .i32⟩
  | .hbm, ⟨14, _⟩ => ⟨S11008x2048x1, .i32⟩
  | .hbm, ⟨15, _⟩ => ⟨S11008x2048x1, .i32⟩
  | .hbm, ⟨16, _⟩ => ⟨S11008x2048x2, .i32⟩
  | .hbm, ⟨17, _⟩ => ⟨S11008x4096, .i32⟩
  | .hbm, ⟨18, _⟩ => ⟨S11008x4096, .f32⟩
  | .hbm, ⟨19, _⟩ => ⟨S11008x32x128, .f32⟩
  | .hbm, ⟨20, _⟩ => ⟨S11008x32x1, .f32⟩
  | .hbm, ⟨21, _⟩ => ⟨S11008x32x128, .f32⟩
  | .hbm, ⟨22, _⟩ => ⟨S11008x32x128, .f32⟩
  | .hbm, ⟨23, _⟩ => ⟨S11008x32x1, .f32⟩
  | .hbm, ⟨24, _⟩ => ⟨S11008x32x128, .f32⟩
  | .hbm, ⟨25, _⟩ => ⟨S11008x32x128, .f32⟩
  | .hbm, ⟨26, _⟩ => ⟨S11008x4096, .f32⟩
  | .hbm, ⟨27, _⟩ => ⟨S512x11008, .f32⟩
  | .hbm, ⟨28, _⟩ => ⟨S1x11008, .f32⟩
  | .hbm, ⟨29, _⟩ => ⟨S512x11008, .f32⟩
  | .hbm, ⟨30, _⟩ => ⟨S512x11008, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S512x11008_0_1 : S1x11008.BroadcastsInDim S512x11008 (![0, 1] : Fin 2 → Fin S512x11008.rank)
  dot_S512x4096_S11008x4096_S512x11008_1_1_0_0_n_n_wf : DotDims.WF S512x4096 S11008x4096 S512x11008 [1] [1] [0] [0] [] []

variable [Facts₀]

def dot_S512x4096_S11008x4096_S512x11008_1_1_0_0_n_n : DotDims S512x4096 S11008x4096 S512x11008 where
  lhsContracting := [1]
  rhsContracting := [1]
  lhsNonContracting := [0]
  rhsNonContracting := [0]
  lhsBatch := []
  rhsBatch := []
  wf := dot_S512x4096_S11008x4096_S512x11008_1_1_0_0_n_n_wf

class Facts : Prop extends Facts₀ where

variable [Facts]
-- ==== Proof.Spec.lean ====
/-
  The two closed forms this certificate compares, as functions of the five argument arrays at an output index (p, n):
  x : [512, 4096] activations, q : [11008, 2048] packed words (two 4-bit weights each: the low nibble is column 2j, the high
  nibble column 2j+1), s, z : [11008, 32] per-group scale and zero point (a group is 128 consecutive columns), b : [11008] bias.

  refForm  : Σ_k x[p,k] · ((nib q n k − z[n, k/128]) · s[n, k/128]) + b[n]                    (dequantize, then one contraction over k)
  kerForm  : (Σ_j xe[p,j]·(lo[n,j]·σ[n,j]) + Σ_j xo[p,j]·(hi[n,j]·σ[n,j])) − Σ_g xg[p,g]·(s[n,g]·z[n,g]) + b[n],
             σ[n,j] = Σ_g s[n,g]·oh[g,j]                                                       (even/odd columns apart, zero point as a rank-32 term)
  kerForm is stated over ANY operands xe, xo, xg, oh and any row count N of q, s, z, b, so that it reads both a grid point's
  blocks (N = 256) and the whole arrays (N = 11008).
-/
import Idealize.ShloMosaic.PureOps.Ideal
import Idealize.ShloMosaic.Lib.ValueIdx

noncomputable section

open scoped BigOperators

namespace Cert.Dequant

open Idealize.ShloMosaic Idealize.ShloMosaic.ValueIdx

/-- Column 2j. -/
def ev (j : Fin 2048) : Fin 4096 := ⟨2 * j.val, by omega⟩
/-- Column 2j+1. -/
def od (j : Fin 2048) : Fin 4096 := ⟨2 * j.val + 1, by omega⟩
/-- The group of column k: k / 128. -/
def grp (k : Fin 4096) : Fin 32 := ⟨k.val / 128, by omega⟩
/-- The packed word holding column k: k / 2. -/
def half (k : Fin 4096) : Fin 2048 := ⟨k.val / 2, by omega⟩
/-- Column l of group g: 128·g + l. -/
def col (g : Fin 32) (l : Fin 128) : Fin 4096 := ⟨g.val * 128 + l.val, by omega⟩

/-- The low nibble of word (n, j), as a real. -/
def lo {N : Nat} (q : (⟨2, ![N, 2048]⟩ : Shape).Idx → BitVec 32) (n : Fin N) (j : Fin 2048) : EReal :=
  ((((q (ix2 n j)) &&& 15#32).toInt : ℝ) : EReal)
/-- The high nibble of word (n, j) (arithmetic shift by four, then the mask), as a real. -/
def hi {N : Nat} (q : (⟨2, ![N, 2048]⟩ : Shape).Idx → BitVec 32) (n : Fin N) (j : Fin 2048) : EReal :=
  (((((q (ix2 n j)).sshiftRight' 4#32) &&& 15#32).toInt : ℝ) : EReal)
/-- The 4-bit weight of column k: the low nibble of word k/2 for even k, the high one for odd k. -/
def nib {N : Nat} (q : (⟨2, ![N, 2048]⟩ : Shape).Idx → BitVec 32) (n : Fin N) (k : Fin 4096) : EReal :=
  if k.val % 2 = 0 then lo q n (half k) else hi q n (half k)
/-- The group indicator: 1 where packed column j (columns 2j, 2j+1) lies in group g, that is j / 64 = g. -/
def oneHot (g : Fin 32) (j : Fin 2048) : EReal := if j.val / 64 = g.val then 1 else 0

/-- The even columns of x: entry (p, j) is x[p, 2j]. -/
def xEven (x : (⟨2, ![512, 4096]⟩ : Shape).Idx → EReal) : (⟨2, ![512, 2048]⟩ : Shape).Idx → EReal :=
  fun i => x (ix2 (⟨(i 0).val, idx2_lt0 i⟩ : Fin 512) (ev ⟨(i 1).val, idx2_lt1 i⟩))
/-- The odd columns of x: entry (p, j) is x[p, 2j+1]. -/
def xOdd (x : (⟨2, ![512, 4096]⟩ : Shape).Idx → EReal) : (⟨2, ![512, 2048]⟩ : Shape).Idx → EReal :=
  fun i => x (ix2 (⟨(i 0).val, idx2_lt0 i⟩ : Fin 512) (od ⟨(i 1).val, idx2_lt1 i⟩))
/-- The per-group row sums of x: entry (p, g) is 0 + Σ_l x[p, 128g + l]. -/
def xGroupSum (x : (⟨2, ![512, 4096]⟩ : Shape).Idx → EReal) : (⟨2, ![512, 32]⟩ : Shape).Idx → EReal :=
  fun i => 0 + ∑ l : Fin 128, x (ix2 (⟨(i 0).val, idx2_lt0 i⟩ : Fin 512) (col ⟨(i 1).val, idx2_lt1 i⟩ l))
/-- The group indicator as a [32, 2048] array. -/
def ohArr : (⟨2, ![32, 2048]⟩ : Shape).Idx → EReal :=
  fun i => oneHot ⟨(i 0).val, idx2_lt0 i⟩ ⟨(i 1).val, idx2_lt1 i⟩

theorem xEven_apply (x : (⟨2, ![512, 4096]⟩ : Shape).Idx → EReal) (p : Fin 512) (j : Fin 2048) : xEven x (ix2 p j) = x (ix2 p (ev j)) := rfl
theorem xOdd_apply (x : (⟨2, ![512, 4096]⟩ : Shape).Idx → EReal) (p : Fin 512) (j : Fin 2048) : xOdd x (ix2 p j) = x (ix2 p (od j)) := rfl
theorem xGroupSum_apply (x : (⟨2, ![512, 4096]⟩ : Shape).Idx → EReal) (p : Fin 512) (g : Fin 32) :
    xGroupSum x (ix2 p g) = 0 + ∑ l : Fin 128, x (ix2 p (col g l)) := rfl
theorem ohArr_apply (g : Fin 32) (j : Fin 2048) : ohArr (ix2 g j) = oneHot g j := rfl

/-- Dequantize, then contract over all 4096 columns, then the bias. -/
def refForm (x : (⟨2, ![512, 4096]⟩ : Shape).Idx → EReal) (q : (⟨2, ![11008, 2048]⟩ : Shape).Idx → BitVec 32)
    (s z : (⟨2, ![11008, 32]⟩ : Shape).Idx → EReal) (b : (⟨1, ![11008]⟩ : Shape).Idx → EReal) (p : Fin 512) (n : Fin 11008) : EReal :=
  (∑ k : Fin 4096, x (ix2 p k) * ((nib q n k - z (ix2 n (grp k))) * s (ix2 n (grp k)))) + b (ix1 n)

/-- Even and odd columns contracted apart against nibble times expanded scale, minus the rank-32 zero-point term, plus the bias. -/
def kerForm {N : Nat} (xe xo : (⟨2, ![512, 2048]⟩ : Shape).Idx → EReal) (xg : (⟨2, ![512, 32]⟩ : Shape).Idx → EReal)
    (oh : (⟨2, ![32, 2048]⟩ : Shape).Idx → EReal) (q : (⟨2, ![N, 2048]⟩ : Shape).Idx → BitVec 32)
    (s z : (⟨2, ![N, 32]⟩ : Shape).Idx → EReal) (b : (⟨1, ![N]⟩ : Shape).Idx → EReal) (p : Fin 512) (n : Fin N) : EReal :=
  ((∑ j : Fin 2048, xe (ix2 p j) * (lo q n j * ∑ g : Fin 32, s (ix2 n g) * oh (ix2 g j))
      + ∑ j : Fin 2048, xo (ix2 p j) * (hi q n j * ∑ g : Fin 32, s (ix2 n g) * oh (ix2 g j)))
    - ∑ g : Fin 32, xg (ix2 p g) * (s (ix2 n g) * z (ix2 n g))) + b (ix1 n)

/-- kerForm reads q, s, z, b at row n only. -/
theorem kerForm_congr {N N' : Nat} (xe xo : (⟨2, ![512, 2048]⟩ : Shape).Idx → EReal) (xg : (⟨2, ![512, 32]⟩ : Shape).Idx → EReal)
    (oh : (⟨2, ![32, 2048]⟩ : Shape).Idx → EReal)
    (q : (⟨2, ![N, 2048]⟩ : Shape).Idx → BitVec 32) (s z : (⟨2, ![N, 32]⟩ : Shape).Idx → EReal) (b : (⟨1, ![N]⟩ : Shape).Idx → EReal)
    (q' : (⟨2, ![N', 2048]⟩ : Shape).Idx → BitVec 32) (s' z' : (⟨2, ![N', 32]⟩ : Shape).Idx → EReal) (b' : (⟨1, ![N']⟩ : Shape).Idx → EReal)
    (p : Fin 512) (n : Fin N) (n' : Fin N')
    (hq : ∀ j : Fin 2048, q (ix2 n j) = q' (ix2 n' j)) (hs : ∀ g : Fin 32, s (ix2 n g) = s' (ix2 n' g))
    (hz : ∀ g : Fin 32, z (ix2 n g) = z' (ix2 n' g)) (hb : b (ix1 n) = b' (ix1 n')) :
    kerForm xe xo xg oh q s z b p n = kerForm xe xo xg oh q' s' z' b' p n' := by
  unfold kerForm lo hi
  simp only [hq, hs, hz, hb]

end Cert.Dequant

end
-- ==== Proof.Payload.lean ====
/-
  What one grid point computes, read at an entry (p, r) of its [512, 256] output block, as a function of the nine loaded blocks:
  the scale block expanded to 2048 lanes by the indicator product, the two nibble planes times it contracted against the
  even and the odd activations, the rank-32 zero-point term subtracted and the bias row added — kerForm at N = 256.
  The three products are plain sums at the exact instance; the changes of format are the identity there.
-/
import proofs.«415044_j4870492913664_3_alg».proof.Proof.Gen.KernelIdeal.Skeleton
import proofs.«415044_j4870492913664_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Dequant

open Idealize.ShloMosaic Idealize.ShloMosaic.ValueIdx Cert.KernelIdeal Cert.KernelIdeal.Gen

/-! ## The scale expansion: [256, 32] · [32, 2048] -/

theorem lhsA_0 (i : S256x2048.Idx) (q : dot_S256x32_S32x2048_S256x2048_1_0_0_1_n_n.contr.Idx) :
    (dot_S256x32_S32x2048_S256x2048_1_0_0_1_n_n.lhsIdx i q 0).val = (i 0).val := by
  unfold DotDims.lhsIdx
  rw [dif_neg (show ¬(0 : Fin S256x32.rank) ∈ dot_S256x32_S32x2048_S256x2048_1_0_0_1_n_n.lhsBatch by decide), dif_pos (show (0 : Fin S256x32.rank) ∈ dot_S256x32_S32x2048_S256x2048_1_0_0_1_n_n.lhsNonContracting by decide)]
  rfl
theorem lhsA_1 (i : S256x2048.Idx) (q : dot_S256x32_S32x2048_S256x2048_1_0_0_1_n_n.contr.Idx) :
    (dot_S256x32_S32x2048_S256x2048_1_0_0_1_n_n.lhsIdx i q 1).val = (q ⟨0, by decide⟩).val :=
  dot_S256x32_S32x2048_S256x2048_1_0_0_1_n_n.lhsIdx_val_of_single rfl i q
theorem rhsA_0 (i : S256x2048.Idx) (q : dot_S256x32_S32x2048_S256x2048_1_0_0_1_n_n.contr.Idx) :
    (dot_S256x32_S32x2048_S256x2048_1_0_0_1_n_n.rhsIdx i q 0).val = (q ⟨0, by decide⟩).val :=
  dot_S256x32_S32x2048_S256x2048_1_0_0_1_n_n.rhsIdx_val_of_single rfl i q
theorem rhsA_1 (i : S256x2048.Idx) (q : dot_S256x32_S32x2048_S256x2048_1_0_0_1_n_n.contr.Idx) :
    (dot_S256x32_S32x2048_S256x2048_1_0_0_1_n_n.rhsIdx i q 1).val = (i 1).val := by
  unfold DotDims.rhsIdx
  rw [dif_neg (show ¬(1 : Fin S32x2048.rank) ∈ dot_S256x32_S32x2048_S256x2048_1_0_0_1_n_n.rhsBatch by decide), dif_pos (show (1 : Fin S32x2048.rank) ∈ dot_S256x32_S32x2048_S256x2048_1_0_0_1_n_n.rhsNonContracting by decide)]
  rfl

/-- Entry (r, j) of the expanded scale: Σ_g s[r, g] · e[g, j]. -/
theorem expand_apply (a : FVec Ideal S256x32 .bf16) (e : FVec Ideal S32x2048 .bf16) (r : Fin 256) (j : Fin 2048) :
    matmul dot_S256x32_S32x2048_S256x2048_1_0_0_1_n_n none a e (constant S256x2048 .f32 0x00000000#32) (ix2 r j)
      = ∑ g : Fin 32, a (ix2 r g) * e (ix2 g j) := by
  simp only [matmul]
  rw [Ideal.matmul_constant_zero_apply, ← Equiv.sum_comp (contrEquiv1 dot_S256x32_S32x2048_S256x2048_1_0_0_1_n_n 32 rfl rfl).symm]
  refine Finset.sum_congr rfl fun k _ => ?_
  have hk := contrEquiv1_symm_val dot_S256x32_S32x2048_S256x2048_1_0_0_1_n_n 32 rfl rfl k
  have el : dot_S256x32_S32x2048_S256x2048_1_0_0_1_n_n.lhsIdx (ix2 r j) ((contrEquiv1 dot_S256x32_S32x2048_S256x2048_1_0_0_1_n_n 32 rfl rfl).symm k) = ix2 r k := funext fun a => Fin.ext (by
    match a with
    | ⟨0, _⟩ => exact lhsA_0 _ _
    | ⟨1, _⟩ => exact (lhsA_1 _ _).trans hk)
  have er : dot_S256x32_S32x2048_S256x2048_1_0_0_1_n_n.rhsIdx (ix2 r j) ((contrEquiv1 dot_S256x32_S32x2048_S256x2048_1_0_0_1_n_n 32 rfl rfl).symm k) = ix2 k j := funext fun a => Fin.ext (by
    match a with
    | ⟨0, _⟩ => exact (rhsA_0 _ _).trans hk
    | ⟨1, _⟩ => exact rhsA_1 _ _)
  rw [el, er]

/-! ## The main contraction: [512, 2048] against [256, 2048], both on their second axis -/

theorem lhsB_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhsB_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhsB_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhsB_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- Entry (p, r) of activations times weights: Σ_j a[p, j] · w[r, j]. -/
theorem contract_apply (a : FVec Ideal S512x2048 .bf16) (w : FVec Ideal S256x2048 .bf16) (p : Fin 512) (r : Fin 256) :
    matmul dot_S512x2048_S256x2048_S512x256_1_1_0_0_n_n none a w (constant S512x256 .f32 0x00000000#32) (ix2 p r)
      = ∑ j : Fin 2048, a (ix2 p j) * w (ix2 r j) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p r) ((contrEquiv1 dot_S512x2048_S256x2048_S512x256_1_1_0_0_n_n 2048 rfl rfl).symm k) = ix2 p k := funext fun a => Fin.ext (by
    match a with
    | ⟨0, _⟩ => exact lhsB_0 _ _
    | ⟨1, _⟩ => exact (lhsB_1 _ _).trans hk)
  have er : dot_S512x2048_S256x2048_S512x256_1_1_0_0_n_n.rhsIdx (ix2 p r) ((contrEquiv1 dot_S512x2048_S256x2048_S512x256_1_1_0_0_n_n 2048 rfl rfl).symm k) = ix2 r k := funext fun a => Fin.ext (by
    match a with
    | ⟨0, _⟩ => exact rhsB_0 _ _
    | ⟨1, _⟩ => exact (rhsB_1 _ _).trans hk)
  rw [el, er]

/-! ## The zero-point term: [512, 32] against [256, 32] -/

theorem lhsC_0 (i : S512x256.Idx) (q : dot_S512x32_S256x32_S512x256_1_1_0_0_n_n.contr.Idx) :
    (dot_S512x32_S256x32_S512x256_1_1_0_0_n_n.lhsIdx i q 0).val = (i 0).val := by
  unfold DotDims.lhsIdx
  rw [dif_neg (show ¬(0 : Fin S512x32.rank) ∈ dot_S512x32_S256x32_S512x256_1_1_0_0_n_n.lhsBatch by decide), dif_pos (show (0 : Fin S512x32.rank) ∈ dot_S512x32_S256x32_S512x256_1_1_0_0_n_n.lhsNonContracting by decide)]
  rfl
theorem lhsC_1 (i : S512x256.Idx) (q : dot_S512x32_S256x32_S512x256_1_1_0_0_n_n.contr.Idx) :
    (dot_S512x32_S256x32_S512x256_1_1_0_0_n_n.lhsIdx i q 1).val = (q ⟨0, by decide⟩).val :=
  dot_S512x32_S256x32_S512x256_1_1_0_0_n_n.lhsIdx_val_of_single rfl i q
theorem rhsC_0 (i : S512x256.Idx) (q : dot_S512x32_S256x32_S512x256_1_1_0_0_n_n.contr.Idx) :
    (dot_S512x32_S256x32_S512x256_1_1_0_0_n_n.rhsIdx i q 0).val = (i 1).val := by
  unfold DotDims.rhsIdx
  rw [dif_neg (show ¬(0 : Fin S256x32.rank) ∈ dot_S512x32_S256x32_S512x256_1_1_0_0_n_n.rhsBatch by decide), dif_pos (show (0 : Fin S256x32.rank) ∈ dot_S512x32_S256x32_S512x256_1_1_0_0_n_n.rhsNonContracting by decide)]
  rfl
theorem rhsC_1 (i : S512x256.Idx) (q : dot_S512x32_S256x32_S512x256_1_1_0_0_n_n.contr.Idx) :
    (dot_S512x32_S256x32_S512x256_1_1_0_0_n_n.rhsIdx i q 1).val = (q ⟨0, by decide⟩).val :=
  dot_S512x32_S256x32_S512x256_1_1_0_0_n_n.rhsIdx_val_of_single rfl i q

/-- Entry (p, r) of group sums times scale·zero: Σ_g a[p, g] · w[r, g]. -/
theorem correct_apply (a : FVec Ideal S512x32 .f32) (w : FVec Ideal S256x32 .f32) (p : Fin 512) (r : Fin 256) :
    matmul dot_S512x32_S256x32_S512x256_1_1_0_0_n_n (some .fp32) a w (constant S512x256 .f32 0x00000000#32) (ix2 p r)
      = ∑ g : Fin 32, a (ix2 p g) * w (ix2 r g) := by
  simp only [matmul]
  rw [Ideal.matmul_constant_zero_apply, ← Equiv.sum_comp (contrEquiv1 dot_S512x32_S256x32_S512x256_1_1_0_0_n_n 32 rfl rfl).symm]
  refine Finset.sum_congr rfl fun k _ => ?_
  have hk := contrEquiv1_symm_val dot_S512x32_S256x32_S512x256_1_1_0_0_n_n 32 rfl rfl k
  have el : dot_S512x32_S256x32_S512x256_1_1_0_0_n_n.lhsIdx (ix2 p r) ((contrEquiv1 dot_S512x32_S256x32_S512x256_1_1_0_0_n_n 32 rfl rfl).symm k) = ix2 p k := funext fun a => Fin.ext (by
    match a with
    | ⟨0, _⟩ => exact lhsC_0 _ _
    | ⟨1, _⟩ => exact (lhsC_1 _ _).trans hk)
  have er : dot_S512x32_S256x32_S512x256_1_1_0_0_n_n.rhsIdx (ix2 p r) ((contrEquiv1 dot_S512x32_S256x32_S512x256_1_1_0_0_n_n 32 rfl rfl).symm k) = ix2 r k := funext fun a => Fin.ext (by
    match a with
    | ⟨0, _⟩ => exact rhsC_0 _ _
    | ⟨1, _⟩ => exact (rhsC_1 _ _).trans hk)
  rw [el, er]

/-! ## The bias row -/

/-- The [256] bias block, laid out as one row and repeated over the 512 rows, reads b[r] at (p, r). -/
theorem bias_apply (b : FVec Ideal S256 .f32) (p : Fin 512) (r : Fin 256) :
    broadcastTo S512x256 (shapeCast S1x256 b shapeCasts_S256_S1x256) broadcasts_S1x256_S512x256 (ix2 p r) = b (ix1 r) :=
  (broadcastTo_1b_ab_apply _ broadcasts_S1x256_S512x256 p r).trans (shapeCast_a_1a_apply b shapeCasts_S256_S1x256 0 r)

/-! ## The body's arithmetic at an entry -/

/-- The word operations under the two conversions: the nibbles. -/
theorem lowNibble_apply (v0 : Vec Ideal S256x2048 .i32) (r : Fin 256) (j : Fin 2048) :
    (sitofp .bf16 (andi v0 (broadcast S256x2048 15#32)) : FVec Ideal S256x2048 .bf16) (ix2 r j) = lo v0 r j := rfl
theorem highNibble_apply (v0 : Vec Ideal S256x2048 .i32) (r : Fin 256) (j : Fin 2048) :
    (sitofp .bf16 (andi (shrsi v0 (broadcast S256x2048 4#32)) (broadcast S256x2048 15#32)) : FVec Ideal S256x2048 .bf16) (ix2 r j) = hi v0 r j := by
  show (((IntOp.andi (IntOp.shrsi .vector (v0 (ix2 r j)) 4#32) 15#32).toInt : ℝ) : EReal) = _
  unfold IntOp.shrsi hi
  rw [if_pos (by decide)]
  rfl

theorem pay_apply (v0 : Vec Ideal S256x2048 .i32) (v9 : Vec Ideal S256x32 .f32) (v11 : Vec Ideal S32x2048 .bf16)
    (v17 v20 : Vec Ideal S512x2048 .bf16) (v25 : Vec Ideal S256x32 .f32) (v27 : Vec Ideal S512x32 .f32)
    (v31 : Vec Ideal S256 .f32) (p : Fin 512) (r : Fin 256) :
    k0_pay1 (F := Ideal) v0 v9 v11 v17 v20 v9 v25 v27 v31 (ix2 p r) = kerForm v17 v20 v27 v11 v0 v9 v25 v31 p r := by
  unfold k0_pay1 kerForm
  rw [addf_apply, subf_apply, addf_apply, bias_apply, correct_apply, contract_apply, contract_apply,
    shapeCast_self, shapeCast_self, shapeCast_self]
  refine congrArg₂ (· + ·) (congrArg₂ (· - ·) (congrArg₂ (· + ·) ?_ ?_) ?_) rfl
  · refine Finset.sum_congr rfl fun j _ => ?_
    rw [mulf_apply, truncf_apply, expand_apply]
    rfl
  · refine Finset.sum_congr rfl fun j _ => ?_
    rw [mulf_apply, truncf_apply, expand_apply, highNibble_apply]
    rfl
  · refine Finset.sum_congr rfl fun g _ => ?_
    rw [mulf_apply, shapeCast_self]

end Cert.Dequant

end
-- ==== Proof.HostGlue.lean ====
/-
  The four operand arrays the host computes before the launch, as functions of x:
  the even and the odd columns (a reshape to [512, 2048, 2], a unit slice of the last axis, a reshape back; the change of
  format is the identity on the extended reals), the per-group row sums (a reshape to [512, 32, 128] summed over the last
  axis from 0), and the group indicator (floor_divide of 0..2047 by 64 compared with 0..31, converted, transposed).
-/
import proofs.«415044_j4870492913664_3_alg».proof.Proof.Gen.KernelIdeal.Frame
import proofs.«415044_j4870492913664_3_alg».proof.Proof.Spec
import Idealize.ShloMosaic.Lib.StableHlo.Run
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.Dequant

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## Index arithmetic of the reshapes, and the floor division on words -/

namespace HostGlue

/-- Columns 2j + o of x, o < 2: split the columns in pairs, keep entry o of each pair, drop the unit axis. -/
theorem pairSlice_apply (x : (⟨2, ![512, 4096]⟩ : Shape).Idx → EReal) (o : Nat) (ho : o < 2)
    (h1 : (⟨2, ![512, 4096]⟩ : Shape).ShapeCasts ⟨3, ![512, 2048, 2]⟩)
    (h2 : (⟨3, ![512, 2048, 2]⟩ : Shape).Slices ![0, 0, o] ⟨3, ![512, 2048, 1]⟩)
    (h3 : (⟨3, ![512, 2048, 1]⟩ : Shape).ShapeCasts ⟨2, ![512, 2048]⟩) (p : Fin 512) (j : Fin 2048) (k : Fin 4096)
    (hk : k.val = 2 * j.val + o) :
    shapeCast ⟨2, ![512, 2048]⟩ (extractStridedSlice ⟨3, ![512, 2048, 1]⟩ ![0, 0, o] (shapeCast ⟨3, ![512, 2048, 2]⟩ x h1) h2) h3 (ix2 p j)
      = x (ix2 p k) := by
  refine (shapeCast_apply _ h3 (ix2 p j) (ix3 p j (0 : Fin 1)) ?_).trans ?_
  · rw [Shape.rowMajor_val_three, Shape.rowMajor_val_two]
    show (p.val * 2048 + j.val) * 1 + 0 = p.val * 2048 + j.val
    omega
  refine (extractStridedSlice_apply ![0, 0, o] _ h2 (ix3 p j (0 : Fin 1)) (ix3 p j (⟨o, ho⟩ : Fin 2)) ?_).trans ?_
  · intro a
    match a with
    | ⟨0, _⟩ => show p.val = 0 + p.val; omega
    | ⟨1, _⟩ => show j.val = 0 + j.val; omega
    | ⟨2, _⟩ => show o = o + 0; omega
  refine shapeCast_apply _ h1 (ix3 p j (⟨o, ho⟩ : Fin 2)) (ix2 p k) ?_
  rw [Shape.rowMajor_val_three, Shape.rowMajor_val_two]
  show p.val * 4096 + k.val = (p.val * 2048 + j.val) * 2 + o
  omega

/-- Entry (p, g, l) of x split in groups of 128 columns is x[p, 128 g + l]. -/
theorem groupCast_apply (x : (⟨2, ![512, 4096]⟩ : Shape).Idx → EReal)
    (h1 : (⟨2, ![512, 4096]⟩ : Shape).ShapeCasts ⟨3, ![512, 32, 128]⟩)
    (h : (⟨3, ![512, 32, 128]⟩ : Shape).Reduces [2] ⟨2, ![512, 32]⟩) (p : Fin 512) (g : Fin 32) (l : Fin 128) :
    shapeCast ⟨3, ![512, 32, 128]⟩ x h1 (h.lift (ix2 p g) l) = x (ix2 p (col g l)) := by
  refine shapeCast_apply x h1 _ (ix2 p (col g l)) ?_
  rw [Shape.rowMajor_val_three, Shape.rowMajor_val_two]
  show p.val * 4096 + (g.val * 128 + l.val) = (p.val * 32 + g.val) * 128 + l.val
  omega

/-- The sign word: 0, -1 or 1. -/
def sgnWord (x : BitVec 32) : BitVec 32 := if x = 0 then 0 else if x.msb then -1 else 1

/-- The quotient by 64 rounded down, as the host spells it: the quotient rounded toward zero, less one where the signs
    differ and the remainder is not zero. -/
def floorDiv64 (x : BitVec 32) : BitVec 32 :=
  Scalar.select
    (IntOp.andi (IntOp.cmpi .ne (sgnWord x) (sgnWord 64#32)) (IntOp.cmpi .ne (IntOp.remsi .host x 64#32) 0#32))
    (IntOp.subi (IntOp.divsi .host x 64#32) 1#32) (IntOp.divsi .host x 64#32)

/-- On the words 0 … 2047 it is the natural quotient. -/
theorem floorDiv64_ofNat : ∀ j : Fin 2048, floorDiv64 (BitVec.ofNat 32 j.val) = BitVec.ofNat 32 (j.val / 64) := by
  decide +kernel

/-- Two words of small naturals compare equal exactly when the naturals are equal. -/
theorem cmpi_eq_ofNat (a b : Nat) (ha : a < 4294967296) (hb : b < 4294967296) :
    IntOp.cmpi .eq (BitVec.ofNat 32 a) (BitVec.ofNat 32 b) = if a = b then 1#1 else 0#1 := by
  by_cases h : a = b
  · subst h
    rw [if_pos rfl]
    show BitVec.ofBool (BitVec.ofNat 32 a == BitVec.ofNat 32 a) = 1#1
    rw [beq_self_eq_true]; rfl
  · have hne : BitVec.ofNat 32 a ≠ BitVec.ofNat 32 b := by
      intro e
      have := congrArg BitVec.toNat e
      simp only [BitVec.toNat_ofNat] at this
      omega
    rw [if_neg h]
    show BitVec.ofBool (BitVec.ofNat 32 a == BitVec.ofNat 32 b) = 0#1
    rw [beq_eq_false_iff_ne.mpr hne]; rfl

/-- The host's floor_divide of 0 … 2047 by 64, operation by operation. -/
def floorDivArr : IVec S2048 32 :=
  select
    (andi
      (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32)))
        (broadcastInDim S2048 ![] bcast_S_S2048 (constantI S_ 32 0#32))))
    (subi (Host.divsi (iotaInDim S2048 32 0) (broadcastInDim S2048 ![] bcast_S_S2048 (constantI S_ 32 64#32)))
      (broadcastInDim S2048 ![] bcast_S_S2048 (constantI S_ 32 1#32)))
    (Host.divsi (iotaInDim S2048 32 0) (broadcastInDim S2048 ![] bcast_S_S2048 (constantI S_ 32 64#32)))

theorem floorDivArr_apply (j : Fin 2048) : floorDivArr (ix1 j) = BitVec.ofNat 32 (j.val / 64) :=
  (show floorDivArr (ix1 j) = floorDiv64 (BitVec.ofNat 32 j.val) from rfl).trans (floorDiv64_ofNat j)

end HostGlue

open HostGlue

/-! ## The four arrays -/

theorem V_xEven (c : Dev nD) :
    (V m c main_v3 : S512x2048.Idx → EReal) = xEven (m ((c : Thread nD τ).loc main_arg0)) := by
  have e : (V m c main_v3 : S512x2048.Idx → EReal)
      = shapeCast S512x2048 (extractStridedSlice S512x2048x1 ![0, 0, 0]
          (shapeCast S512x2048x2 (m ((c : Thread nD τ).loc main_arg0) : S512x4096.Idx → EReal) shapeCasts_S512x4096_S512x2048x2)
          slices_S512x2048x2_S512x2048x1_0_0_0) shapeCasts_S512x2048x1_S512x2048 := by
    dsimp only [Gen.V]
    simp only [Gen.hostOps0, Gen.hostOps0_1, Gen.hostOps0_2, Gen.hostOps0_3, List.flatten_cons, List.flatten_nil, List.append_nil, List.cons_append, List.nil_append]
    after_results
    rfl
  refine e.trans ?_
  funext i
  obtain ⟨p, j, rfl⟩ : ∃ (p : Fin 512) (j : Fin 2048), i = ix2 p j := ⟨i 0, i 1, eq_ix2 i⟩
  rw [xEven_apply]
  exact pairSlice_apply _ 0 (by omega) _ _ _ p j (ev j) rfl

theorem V_xOdd (c : Dev nD) :
    (V m c main_v6 : S512x2048.Idx → EReal) = xOdd (m ((c : Thread nD τ).loc main_arg0)) := by
  have e : (V m c main_v6 : S512x2048.Idx → EReal)
      = shapeCast S512x2048 (extractStridedSlice S512x2048x1 ![0, 0, 1]
          (shapeCast S512x2048x2 (m ((c : Thread nD τ).loc main_arg0) : S512x4096.Idx → EReal) shapeCasts_S512x4096_S512x2048x2)
          slices_S512x2048x2_S512x2048x1_0_0_1) shapeCasts_S512x2048x1_S512x2048 := by
    dsimp only [Gen.V]
    simp only [Gen.hostOps0, Gen.hostOps0_1, Gen.hostOps0_2, Gen.hostOps0_3, List.flatten_cons, List.flatten_nil, List.append_nil, List.cons_append, List.nil_append]
    after_results
    rfl
  refine e.trans ?_
  funext i
  obtain ⟨p, j, rfl⟩ : ∃ (p : Fin 512) (j : Fin 2048), i = ix2 p j := ⟨i 0, i 1, eq_ix2 i⟩
  rw [xOdd_apply]
  exact pairSlice_apply _ 1 (by omega) _ _ _ p j (od j) rfl

theorem V_xGroupSum (c : Dev nD) :
    (V m c main_v8 : S512x32.Idx → EReal) = xGroupSum (m ((c : Thread nD τ).loc main_arg0)) := by
  have e : (V m c main_v8 : S512x32.Idx → EReal)
      = Host.reduceAdd (F := Ideal) (φ := .f32)
          (shapeCast S512x32x128 (m ((c : Thread nD τ).loc main_arg0) : S512x4096.Idx → EReal) shapeCasts_S512x4096_S512x32x128)
          (constant (F := Ideal) S_ .f32 0x00000000#32) reducesTo_S512x32x128_S512x32_d2 h_S_ := by
    dsimp only [Gen.V]
    simp only [Gen.hostOps0, Gen.hostOps0_1, Gen.hostOps0_2, Gen.hostOps0_3, List.flatten_cons, List.flatten_nil, List.append_nil, List.cons_append, List.nil_append]
    after_results
    rfl
  refine e.trans ?_
  funext i
  obtain ⟨p, g, rfl⟩ : ∃ (p : Fin 512) (g : Fin 32), i = ix2 p g := ⟨i 0, i 1, eq_ix2 i⟩
  rw [xGroupSum_apply]
  refine (hostReduceAdd_apply _ _ reducesTo_S512x32x128_S512x32_d2 h_S_ (ix2 p g)).trans ?_
  have hr : S512x32x128.Reduces [2] S512x32 := by decide
  refine (Ideal.hostReduceAdd_single reducesTo_S512x32x128_S512x32_d2 hr _ _ (ix2 p g)).trans ?_
  refine congrArg₂ (· + ·) ?_ (Finset.sum_congr rfl fun l _ => ?_)
  · exact Ideal.ofBits_zero_f32
  · exact groupCast_apply _ _ hr p g l

theorem V_oneHot (c : Dev nD) :
    (V m c main_v12 : S32x2048.Idx → EReal) = ohArr := by
  have e : (V m c main_v12 : S32x2048.Idx → EReal)
      = transpose S32x2048 [1, 0]
          (uitofp (F := Ideal) .bf16
            (cmpi .eq
              (broadcastInDim S2048x32 ![0, 1] bcast_S2048x1_S2048x32_0_1 (broadcastInDim S2048x1 ![0] bcast_S2048_S2048x1_0 floorDivArr))
              (broadcastInDim S2048x32 ![0, 1] bcast_S1x32_S2048x32_0_1 (iotaInDim S1x32 32 1))))
          transposes_S2048x32_S32x2048_1_0 := by
    dsimp only [Gen.V]
    simp only [Gen.hostOps0, Gen.hostOps0_1, Gen.hostOps0_2, Gen.hostOps0_3, List.flatten_cons, List.flatten_nil, List.append_nil, List.cons_append, List.nil_append]
    after_results_simp
    rfl
  refine e.trans ?_
  funext i
  obtain ⟨g, j, rfl⟩ : ∃ (g : Fin 32) (j : Fin 2048), i = ix2 g j := ⟨i 0, i 1, eq_ix2 i⟩
  rw [ohArr_apply]
  refine (transpose_ix2_apply _ transposes_S2048x32_S32x2048_1_0 g j).trans ?_
  have hA : broadcastInDim S2048x32 ![0, 1] bcast_S2048x1_S2048x32_0_1
      (broadcastInDim S2048x1 ![0] bcast_S2048_S2048x1_0 floorDivArr) (ix2 j g) = BitVec.ofNat 32 (j.val / 64) := by
    refine (broadcastInDim_apply _ bcast_S2048x1_S2048x32_0_1 _ (ix2 j g) (ix2 j (0 : Fin 1)) ?_).trans ?_
    · intro a
      match a with
      | ⟨0, _⟩ => rfl
      | ⟨1, _⟩ => rfl
    refine (broadcastInDim_apply _ bcast_S2048_S2048x1_0 _ (ix2 j (0 : Fin 1)) (ix1 j) ?_).trans (floorDivArr_apply j)
    intro a
    match a with
    | ⟨0, _⟩ => rfl
  have hB : broadcastInDim S2048x32 ![0, 1] bcast_S1x32_S2048x32_0_1 (iotaInDim S1x32 32 1) (ix2 j g)
      = BitVec.ofNat 32 g.val := by
    refine (broadcastInDim_apply _ bcast_S1x32_S2048x32_0_1 _ (ix2 j g) (ix2 (0 : Fin 1) g) ?_).trans rfl
    intro a
    match a with
    | ⟨0, _⟩ => rfl
    | ⟨1, _⟩ => rfl
  show ((((IntOp.cmpi .eq
      (broadcastInDim S2048x32 ![0, 1] bcast_S2048x1_S2048x32_0_1 (broadcastInDim S2048x1 ![0] bcast_S2048_S2048x1_0 floorDivArr) (ix2 j g))
      (broadcastInDim S2048x32 ![0, 1] bcast_S1x32_S2048x32_0_1 (iotaInDim S1x32 32 1) (ix2 j g))).toNat : ℝ) : EReal)) = oneHot g j
  rw [hA, hB, cmpi_eq_ofNat _ _ (by omega) (by omega)]
  unfold oneHot
  by_cases h : j.val / 64 = g.val
  · rw [if_pos h, if_pos h]
    show (((1 : ℕ) : ℝ) : EReal) = 1
    simp
  · rw [if_neg h, if_neg h]
    show (((0 : ℕ) : ℝ) : EReal) = 0
    simp

end Cert.Dequant

end
-- ==== Proof.Blocks.lean ====
/-
  From grid points to the whole output array. Point t of the 43 reads rows 256t … 256t+255 of q, s, z, b (and all of the
  four host-made operands) and writes columns 256t … 256t+255 of the [512, 11008] output; entry (p, r) of what it writes is
  kerForm of its blocks at (p, r), and kerForm reads q, s, z, b at one row only, so that is kerForm of the whole arrays at
  (p, 256t + r). The 43 column blocks tile the output, so after the run the output array is kerForm of the arrays at every index.
-/
import proofs.«415044_j4870492913664_3_alg».proof.Proof.Gen.KernelIdeal.Value
import proofs.«415044_j4870492913664_3_alg».proof.Proof.Payload
import proofs.«415044_j4870492913664_3_alg».proof.Proof.HostGlue
import proofs.«415044_j4870492913664_3_alg».proof.Proof.Spec

set_option maxRecDepth 16384

noncomputable section

open scoped BigOperators

namespace Cert.Dequant

open Idealize.ShloMosaic Idealize.ShloMosaic.TcCoe Idealize.SL.Sem Idealize.ShloMosaic.ValueIdx
open Cert.KernelIdeal Cert.KernelIdeal.Gen
open Idealize.ShloMosaic.Pipeline (Dat)

/-- kerForm reads its operands at row p (and every column) of the activations' side and at row n of the weights' side. -/
theorem kerForm_congr_all {N N' : Nat}
    (xe xo xe' xo' : (⟨2, ![512, 2048]⟩ : Shape).Idx → EReal) (xg xg' : (⟨2, ![512, 32]⟩ : Shape).Idx → EReal)
    (oh oh' : (⟨2, ![32, 2048]⟩ : Shape).Idx → EReal)
    (q : (⟨2, ![N, 2048]⟩ : Shape).Idx → BitVec 32) (s z : (⟨2, ![N, 32]⟩ : Shape).Idx → EReal) (b : (⟨1, ![N]⟩ : Shape).Idx → EReal)
    (q' : (⟨2, ![N', 2048]⟩ : Shape).Idx → BitVec 32) (s' z' : (⟨2, ![N', 32]⟩ : Shape).Idx → EReal) (b' : (⟨1, ![N']⟩ : Shape).Idx → EReal)
    (p p' : Fin 512) (n : Fin N) (n' : Fin N')
    (hxe : ∀ j : Fin 2048, xe (ix2 p j) = xe' (ix2 p' j)) (hxo : ∀ j : Fin 2048, xo (ix2 p j) = xo' (ix2 p' j))
    (hxg : ∀ g : Fin 32, xg (ix2 p g) = xg' (ix2 p' g)) (hoh : ∀ (g : Fin 32) (j : Fin 2048), oh (ix2 g j) = oh' (ix2 g j))
    (hq : ∀ j : Fin 2048, q (ix2 n j) = q' (ix2 n' j)) (hs : ∀ g : Fin 32, s (ix2 n g) = s' (ix2 n' g))
    (hz : ∀ g : Fin 32, z (ix2 n g) = z' (ix2 n' g)) (hb : b (ix1 n) = b' (ix1 n')) :
    kerForm xe xo xg oh q s z b p n = kerForm xe' xo' xg' oh' q' s' z' b' p' n' := by
  unfold kerForm lo hi
  simp only [hxe, hxo, hxg, hoh, hq, hs, hz, hb]

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

theorem t_lt (t : Fin cfg0.N) : t.val < 43 := lt_of_lt_of_eq t.isLt N_0

/-- The printed index maps over the grid: the four host-made operands and the output's rows stay at block 0; q, s, z, b and
    the output's columns move to block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 1) = t.val
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- The output array as one function of the arrays the launch finds. -/
def outArr (c : Dev nD) : S512x11008.Idx → EReal := fun i =>
  kerForm (V m c main_v3 : S512x2048.Idx → EReal) (V m c main_v6 : S512x2048.Idx → EReal) (V m c main_v8 : S512x32.Idx → EReal)
    (V m c main_v12 : S32x2048.Idx → EReal) (V m c main_arg1 : S11008x2048.Idx → BitVec 32) (V m c main_arg2 : S11008x32.Idx → EReal)
    (V m c main_arg3 : S11008x32.Idx → EReal) (V m c main_arg4 : S11008.Idx → EReal)
    (⟨(i 0).val, idx2_lt0 i⟩ : Fin 512) (⟨(i 1).val, idx2_lt1 i⟩ : Fin 11008)

/-- Entry r of point t's bias block is b[256t + r]. -/
theorem bias_blk (c : Dev nD) (t : Fin cfg0.N) (r : Fin 256) (n' : Fin 11008) (h : n'.val = t.val * 256 + r.val) :
    iblk m c 6 t (ix1 r) = (V m c main_arg4 : S11008.Idx → EReal) (ix1 n') := by
  unfold iblk
  show V m c main_arg4 (((cfg0.win 6).blk t).view.emb (ix1 r)) = _
  refine congrArg (V m c main_arg4) (funext fun a => Fin.ext ?_)
  obtain ⟨-, -, -, -, -, -, -, -, -, -, -, -, e60, -⟩ := idx_facts t
  match a with
  | ⟨0, _⟩ => show win0_6.index t (0 : Fin 1) * 256 + 1 * r.val = n'.val; omega

/-- Entry (p, r) of what point t computes is the output function at (p, 256t + r). -/
theorem point_eq (c : Dev nD) (t : Fin cfg0.N) (y : S512x256.Idx) :
    k0_pay1 (F := Ideal) (iblk m c 3 t) (iblk m c 4 t) (iblk m c 7 t) (iblk m c 0 t) (iblk m c 1 t) (iblk m c 4 t) (iblk m c 5 t)
        (iblk m c 2 t) (iblk m c 6 t) y
      = outArr m c (((cfg0.win 8).blk t).view.emb y) := by
  obtain ⟨p, r, rfl⟩ : ∃ (p : Fin 512) (r : Fin 256), y = ix2 p r := ⟨y 0, y 1, eq_ix2 y⟩
  refine (pay_apply (iblk m c 3 t) (iblk m c 4 t) (iblk m c 7 t) (iblk m c 0 t) (iblk m c 1 t) (iblk m c 5 t) (iblk m c 2 t)
    (iblk m c 6 t) p r).trans ?_
  obtain ⟨e00, e01, e10, e11, e20, e21, e30, e31, e40, e41, e50, e51, e60, e70, e71, e80, e81⟩ := idx_facts t
  have ht := t_lt t
  unfold outArr
  refine kerForm_congr_all _ _ _ _ _ _ _ _ _ _ _ _ _ _ _ _ _ _ _ _ ?_ ?_ ?_ ?_ ?_ ?_ ?_ ?_
  · intro j
    show V m c main_v3 (((cfg0.win 0).blk t).view.emb (ix2 p j)) = V m c main_v3 _
    refine congrArg (V m c main_v3) (funext fun a => Fin.ext ?_)
    match a with
    | ⟨0, _⟩ => show win0_0.index t (0 : Fin 2) * 512 + 1 * p.val = win0_8.index t (0 : Fin 2) * 512 + 1 * p.val; omega
    | ⟨1, _⟩ => show win0_0.index t (1 : Fin 2) * 2048 + 1 * j.val = j.val; omega
  · intro j
    show V m c main_v6 (((cfg0.win 1).blk t).view.emb (ix2 p j)) = V m c main_v6 _
    refine congrArg (V m c main_v6) (funext fun a => Fin.ext ?_)
    match a with
    | ⟨0, _⟩ => show win0_1.index t (0 : Fin 2) * 512 + 1 * p.val = win0_8.index t (0 : Fin 2) * 512 + 1 * p.val; omega
    | ⟨1, _⟩ => show win0_1.index t (1 : Fin 2) * 2048 + 1 * j.val = j.val; omega
  · intro g
    show V m c main_v8 (((cfg0.win 2).blk t).view.emb (ix2 p g)) = V m c main_v8 _
    refine congrArg (V m c main_v8) (funext fun a => Fin.ext ?_)
    match a with
    | ⟨0, _⟩ => show win0_2.index t (0 : Fin 2) * 512 + 1 * p.val = win0_8.index t (0 : Fin 2) * 512 + 1 * p.val; omega
    | ⟨1, _⟩ => show win0_2.index t (1 : Fin 2) * 32 + 1 * g.val = g.val; omega
  · intro g j
    show V m c main_v12 (((cfg0.win 7).blk t).view.emb (ix2 g j)) = V m c main_v12 _
    refine congrArg (V m c main_v12) (funext fun a => Fin.ext ?_)
    match a with
    | ⟨0, _⟩ => show win0_7.index t (0 : Fin 2) * 32 + 1 * g.val = g.val; omega
    | ⟨1, _⟩ => show win0_7.index t (1 : Fin 2) * 2048 + 1 * j.val = j.val; omega
  · intro j
    show V m c main_arg1 (((cfg0.win 3).blk t).view.emb (ix2 r j)) = V m c main_arg1 _
    refine congrArg (V m c main_arg1) (funext fun a => Fin.ext ?_)
    match a with
    | ⟨0, _⟩ => show win0_3.index t (0 : Fin 2) * 256 + 1 * r.val = win0_8.index t (1 : Fin 2) * 256 + 1 * r.val; omega
    | ⟨1, _⟩ => show win0_3.index t (1 : Fin 2) * 2048 + 1 * j.val = j.val; omega
  · intro g
    show V m c main_arg2 (((cfg0.win 4).blk t).view.emb (ix2 r g)) = V m c main_arg2 _
    refine congrArg (V m c main_arg2) (funext fun a => Fin.ext ?_)
    match a with
    | ⟨0, _⟩ => show win0_4.index t (0 : Fin 2) * 256 + 1 * r.val = win0_8.index t (1 : Fin 2) * 256 + 1 * r.val; omega
    | ⟨1, _⟩ => show win0_4.index t (1 : Fin 2) * 32 + 1 * g.val = g.val; omega
  · intro g
    show V m c main_arg3 (((cfg0.win 5).blk t).view.emb (ix2 r g)) = V m c main_arg3 _
    refine congrArg (V m c main_arg3) (funext fun a => Fin.ext ?_)
    match a with
    | ⟨0, _⟩ => show win0_5.index t (0 : Fin 2) * 256 + 1 * r.val = win0_8.index t (1 : Fin 2) * 256 + 1 * r.val; omega
    | ⟨1, _⟩ => show win0_5.index t (1 : Fin 2) * 32 + 1 * g.val = g.val; omega
  · exact bias_blk m c t r _ (by show win0_8.index t (1 : Fin 2) * 256 + 1 * r.val = t.val * 256 + r.val; omega)

/-- What point t writes back is block t of the output function. -/
theorem flushed8_eq (c : Dev nD) (t : Fin cfg0.N) :
    (dats m 0 c).flushed 8 t = ((cfg0.win 8).blk t).view.read (Elt Ideal) (outArr m c) := by
  rw [Value.flushed8]
  unfold out0_8
  rw [View.canon_unit_zero hz2]
  simp only [View.ld_unit_zero (S := S256x2048) hz2, View.ld_unit_zero (S := S256x32) hz2, View.ld_unit_zero (S := S32x2048) hz2,
    View.ld_unit_zero (S := S512x2048) hz2, View.ld_unit_zero (S := S512x32) hz2, View.ld_unit_zero (S := S256) hz1]
  funext y
  exact point_eq m c t y

/-- An index of the output is in point t's block iff each coordinate is in the block's range on its axis. -/
theorem mem_blk8 (t : Fin cfg0.N) (i : S512x11008.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v13).slice (win0_8.rect t)).set ↔ _
  rw [View.set_slice_whole, Rect.mem_set_unit]
  exact Iff.rfl

/-- Column n lies in the block of point n / 256. -/
theorem cover8 (i : S512x11008.Idx) : ∃ t : Fin cfg0.N, (cfg0.win 8).flush t = true ∧ i ∈ ((cfg0.win 8).blk t).view.set := by
  have h0 : (i 0).val < 512 := idx2_lt0 i
  have h1 : (i 1).val < 11008 := idx2_lt1 i
  refine ⟨⟨(i 1).val / 256, lt_of_lt_of_eq (by omega : (i 1).val / 256 < 43) N_0.symm⟩, flush0_8 _, ?_⟩
  rw [mem_blk8]
  obtain ⟨-, -, -, -, -, -, -, -, -, -, -, -, -, -, -, e80, e81⟩ := idx_facts ⟨(i 1).val / 256, lt_of_lt_of_eq (by omega : (i 1).val / 256 < 43) N_0.symm⟩
  intro a
  match a with
  | ⟨0, _⟩ => show win0_8.index _ (0 : Fin 2) * 512 ≤ (i 0).val ∧ (i 0).val < win0_8.index _ (0 : Fin 2) * 512 + 512; rw [e80]; omega
  | ⟨1, _⟩ => show win0_8.index _ (1 : Fin 2) * 256 ≤ (i 1).val ∧ (i 1).val < win0_8.index _ (1 : Fin 2) * 256 + 256; rw [e81]; show (i 1).val / 256 * 256 ≤ (i 1).val ∧ (i 1).val < (i 1).val / 256 * 256 + 256; omega

/-- The output array after the run. -/
theorem final8 (c : Dev nD) : (dats m 0 c).arrAt 8 cfg0.N = outArr m c :=
  (dats m 0 c).arrAt_eq_of_cover 8 (outArr m c) (fun t _ => flushed8_eq m c t) cover8

/-- The output function over the argument arrays themselves: the four host-made operands are the even columns, the odd
    columns, the group sums of x and the group indicator; q, s, z, b reach the launch unchanged. -/
theorem outArr_eq (c : Dev nD) : outArr m c = fun i =>
    kerForm (xEven (m ((c : Thread nD τ).loc main_arg0))) (xOdd (m ((c : Thread nD τ).loc main_arg0)))
      (xGroupSum (m ((c : Thread nD τ).loc main_arg0))) ohArr
      (m ((c : Thread nD τ).loc main_arg1)) (m ((c : Thread nD τ).loc main_arg2)) (m ((c : Thread nD τ).loc main_arg3))
      (m ((c : Thread nD τ).loc main_arg4)) (⟨(i 0).val, idx2_lt0 i⟩ : Fin 512) (⟨(i 1).val, idx2_lt1 i⟩ : Fin 11008) := by
  unfold outArr
  rw [V_xEven, V_xOdd, V_xGroupSum, V_oneHot, V_main_arg1, V_main_arg2, V_main_arg3, V_main_arg4]

/-- The kernel program's run with its result named. -/
theorem kernel_run : θ_run defs (onTc (τ := τ) (main (F := Ideal))) ⟨m, fun _ => 0, ρ⟩ fun r => ∀ c : Dev nD,
      r.2.mem ((c : Thread nD τ).loc main_v13) = (fun i =>
        kerForm (xEven (m ((c : Thread nD τ).loc main_arg0))) (xOdd (m ((c : Thread nD τ).loc main_arg0)))
          (xGroupSum (m ((c : Thread nD τ).loc main_arg0))) ohArr
          (m ((c : Thread nD τ).loc main_arg1)) (m ((c : Thread nD τ).loc main_arg2)) (m ((c : Thread nD τ).loc main_arg3))
          (m ((c : Thread nD τ).loc main_arg4)) (⟨(i 0).val, idx2_lt0 i⟩ : Fin 512) (⟨(i 1).val, idx2_lt1 i⟩ : Fin 11008))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final8 m c)).trans (outArr_eq m c), (h c).2⟩)
    (Cert.KernelIdeal.Value.run_blocks m ρ)

end Cert.Dequant

end
-- ==== Proof.RefSide.lean ====
/-
  The reference, read at an output index (p, n): its run's term is refForm. The two nibble planes are joined on a
  trailing axis of size two and flattened, so column k of the dequantized matrix takes word k/2, low nibble for even k
  and high nibble for odd k; the two [11008, 32, 128] reshapes give column k the scale and zero point of group k/128.
-/
import proofs.«415044_j4870492913664_3_alg».proof.Proof.Gen.ReferenceIdeal.Read
import proofs.«415044_j4870492913664_3_alg».proof.Proof.Spec

noncomputable section

open scoped BigOperators

namespace Cert.Dequant

open Idealize.ShloMosaic Idealize.ShloMosaic.ValueIdx Cert.ReferenceIdeal Cert.ReferenceIdeal.Read

/-- The low plane of the joined nibble array: word (n, j) masked to its low four bits. -/
theorem v8_lo (x1 : (⟨S11008x2048, .i32⟩ : BufTy).Contents (Elt Ideal)) (n : Fin 11008) (j : Fin 2048) :
    val_main_v8 (F := Ideal) x1 (ix3 n j (0 : Fin 2)) = (x1 (ix2 n j)) &&& 15#32 := by
  unfold val_main_v8
  rw [concatenate_pair_apply_left (t := S11008x2048x2) (s₁ := S11008x2048x1) (s₂ := S11008x2048x1) (2 : Fin 3) _ _ _ (ix3 n j (0 : Fin 2)) rfl (ix3 n j (0 : Fin 1))
    (fun b => by match b with | ⟨0, _⟩ => rfl | ⟨1, _⟩ => rfl | ⟨2, _⟩ => rfl)]
  rw [val_main_v6_apply, val_main_v1_apply, val_main_v0_apply, val_main_c_apply]
  have e : idx_main_v6 (ix3 n j (0 : Fin 1)) = ix2 n j := funext fun a => Fin.ext (by
    match a with
    | ⟨0, _⟩ => rfl
    | ⟨1, _⟩ => rfl)
  rw [e]
  rfl

/-- The high plane: word (n, j) shifted right by four (arithmetically), masked to four bits. -/
theorem v8_hi (x1 : (⟨S11008x2048, .i32⟩ : BufTy).Contents (Elt Ideal)) (n : Fin 11008) (j : Fin 2048) :
    val_main_v8 (F := Ideal) x1 (ix3 n j (1 : Fin 2)) = ((x1 (ix2 n j)).sshiftRight' 4#32) &&& 15#32 := by
  unfold val_main_v8
  rw [concatenate_pair_apply_right (t := S11008x2048x2) (s₁ := S11008x2048x1) (s₂ := S11008x2048x1) (2 : Fin 3) _ _ _ (ix3 n j (1 : Fin 2)) rfl rfl (ix3 n j (0 : Fin 1))
    (fun b hb => by match b with | ⟨0, _⟩ => rfl | ⟨1, _⟩ => rfl | ⟨2, _⟩ => exact absurd rfl hb) rfl]
  rw [val_main_v7_apply, val_main_v5_apply, val_main_v4_apply, val_main_c_1_apply, val_main_v3_apply, val_main_v2_apply, val_main_c_0_apply]
  have e : idx_main_v7 (ix3 n j (0 : Fin 1)) = ix2 n j := funext fun a => Fin.ext (by
    match a with
    | ⟨0, _⟩ => rfl
    | ⟨1, _⟩ => rfl)
  rw [e]
  unfold IntOp.shrsi IntOp.andi
  rw [if_pos (by decide)]

/-- The flattened nibble array at column k: plane k % 2 of word k / 2. -/
theorem v9_at (x1 : (⟨S11008x2048, .i32⟩ : BufTy).Contents (Elt Ideal)) (n : Fin 11008) (k : Fin 4096) :
    val_main_v9 (F := Ideal) x1 (ix2 n k)
      = val_main_v8 (F := Ideal) x1 (ix3 n (half k) (⟨k.val % 2, Nat.mod_lt _ (by decide)⟩ : Fin 2)) := by
  rw [val_main_v9_apply]
  have e : idx_main_v9 (ix2 n k) = ix3 n (half k) (⟨k.val % 2, Nat.mod_lt _ (by decide)⟩ : Fin 2) :=
    funext fun a => Fin.ext (by
      have hn := n.isLt
      have hk := k.isLt
      match a with
      | ⟨0, _⟩ => show (n.val * 4096 + k.val) / 4096 = n.val; omega
      | ⟨1, _⟩ => show (n.val * 4096 + k.val) / 2 % 2048 = k.val / 2; omega
      | ⟨2, _⟩ => show (n.val * 4096 + k.val) % 2 = k.val % 2; omega)
  rw [e]

/-- The converted weight of column k is the nibble of column k. -/
theorem v10_at (x1 : (⟨S11008x2048, .i32⟩ : BufTy).Contents (Elt Ideal)) (n : Fin 11008) (k : Fin 4096) :
    val_main_v10 (F := Ideal) x1 (ix2 n k) = nib x1 n k := by
  rw [val_main_v10_apply, v9_at]
  unfold nib
  rcases Nat.mod_two_eq_zero_or_one k.val with h | h
  · rw [if_pos h]
    have e : (⟨k.val % 2, Nat.mod_lt _ (by decide)⟩ : Fin 2) = (0 : Fin 2) := Fin.ext h
    rw [e, v8_lo]
    rfl
  · rw [if_neg (by omega)]
    have e : (⟨k.val % 2, Nat.mod_lt _ (by decide)⟩ : Fin 2) = (1 : Fin 2) := Fin.ext h
    rw [e, v8_hi]
    rfl

/-- The dequantized weight of column k: nibble minus the group's zero point, times the group's scale. -/
theorem weight_apply (x1 : (⟨S11008x2048, .i32⟩ : BufTy).Contents (Elt Ideal)) (x2 x3 : (⟨S11008x32, .f32⟩ : BufTy).Contents (Elt Ideal))
    (n : Fin 11008) (k : Fin 4096) :
    val_main_v18 (F := Ideal) x1 x2 x3 (ix2 n k) = (nib x1 n k - x3 (ix2 n (grp k))) * x2 (ix2 n (grp k)) := by
  have hn := n.isLt
  have hk := k.isLt
  have e18 : idx_main_v18 (ix2 n k) = ix3 n (grp k) (⟨k.val % 128, Nat.mod_lt _ (by decide)⟩ : Fin 128) :=
    funext fun a => Fin.ext (by
      match a with
      | ⟨0, _⟩ => show (n.val * 4096 + k.val) / 4096 = n.val; omega
      | ⟨1, _⟩ => show (n.val * 4096 + k.val) / 128 % 32 = k.val / 128; omega
      | ⟨2, _⟩ => show (n.val * 4096 + k.val) % 128 = k.val % 128; omega)
  have e11 : idx_main_v11 (ix3 n (grp k) (⟨k.val % 128, Nat.mod_lt _ (by decide)⟩ : Fin 128)) = ix2 n k :=
    funext fun a => Fin.ext (by
      match a with
      | ⟨0, _⟩ => show ((n.val * 32 + k.val / 128) * 128 + k.val % 128) / 4096 = n.val; omega
      | ⟨1, _⟩ => show ((n.val * 32 + k.val / 128) * 128 + k.val % 128) % 4096 = k.val; omega)
  have e13 : idx_main_v12 (idx_main_v13 (ix3 n (grp k) (⟨k.val % 128, Nat.mod_lt _ (by decide)⟩ : Fin 128))) = ix2 n (grp k) :=
    funext fun a => Fin.ext (by
      match a with
      | ⟨0, _⟩ => rfl
      | ⟨1, _⟩ => rfl)
  have e16 : idx_main_v15 (idx_main_v16 (ix3 n (grp k) (⟨k.val % 128, Nat.mod_lt _ (by decide)⟩ : Fin 128))) = ix2 n (grp k) :=
    funext fun a => Fin.ext (by
      match a with
      | ⟨0, _⟩ => rfl
      | ⟨1, _⟩ => rfl)
  rw [val_main_v18_apply, e18, val_main_v17_apply, val_main_v14_apply, val_main_v11_apply, e11, v10_at,
    val_main_v13_apply, val_main_v12_apply, e13, val_main_v16_apply, val_main_v15_apply, e16]
  rfl

theorem ref_apply (x0 : (⟨S512x4096, .f32⟩ : BufTy).Contents (Elt Ideal)) (x1 : (⟨S11008x2048, .i32⟩ : BufTy).Contents (Elt Ideal))
    (x2 x3 : (⟨S11008x32, .f32⟩ : BufTy).Contents (Elt Ideal)) (x4 : (⟨S11008, .f32⟩ : BufTy).Contents (Elt Ideal))
    (p : Fin 512) (n : Fin 11008) :
    val_main_v22 (F := Ideal) x0 x1 x2 x3 x4 (ix2 p n) = refForm x0 x1 x2 x3 x4 p n := by
  have eb : idx_main_v20 (idx_main_v21 (ix2 p n)) = ix1 n := funext fun a => Fin.ext (by
    match a with
    | ⟨0, _⟩ => rfl)
  rw [val_main_v22_apply, val_main_v19_apply, val_main_v21_apply, val_main_v20_apply, eb]
  unfold refForm
  refine congrArg (fun t => t + x4 (ix1 n)) ?_
  refine Finset.sum_congr rfl fun k _ => ?_
  have el : lidx_main_v19 (ix2 p n) k = ix2 p k := funext fun a => Fin.ext (by
    match a with
    | ⟨0, _⟩ => rfl
    | ⟨1, _⟩ => rfl)
  have er : ridx_main_v19 (ix2 p n) k = ix2 n k := funext fun a => Fin.ext (by
    match a with
    | ⟨0, _⟩ => rfl
    | ⟨1, _⟩ => rfl)
  rw [el, er, weight_apply]

end Cert.Dequant

end
-- ==== Proof.Algebra.lean ====
/-
  The algebraic law that joins the two closed forms. Over finite reals
    (q − z)·s = q·s − z·s,
  the 4096 columns split into even and odd ones (k = 2j, 2j+1, both in group j/64), the indicator sum Σ_g s[n,g]·[j/64 = g]
  collapses to s[n, j/64], and Σ_g (Σ_l x[p,128g+l])·(s[n,g]·z[n,g]) = Σ_k x[p,k]·z[n,k/128]·s[n,k/128].
  Distributivity is what needs every float input finite.
-/
import proofs.«415044_j4870492913664_3_alg».proof.Proof.Spec
import Mathlib.Algebra.BigOperators.Fin
import Mathlib.Algebra.BigOperators.Group.Finset.Basic
import Mathlib.Data.Fintype.BigOperators
import Mathlib.Logic.Equiv.Fin.Basic
import Mathlib.Data.EReal.Operations
import Mathlib.Tactic.Ring

noncomputable section

open scoped BigOperators

namespace Cert.Dequant

open Idealize.ShloMosaic Idealize.ShloMosaic.ValueIdx

/-! ### Index arithmetic -/

theorem grp_ev (j : Fin 2048) : grp (ev j) = ⟨j.val / 64, by omega⟩ := by
  apply Fin.ext; simp only [grp, ev]; omega

theorem grp_od (j : Fin 2048) : grp (od j) = ⟨j.val / 64, by omega⟩ := by
  apply Fin.ext; simp only [grp, od]; omega

theorem half_ev (j : Fin 2048) : half (ev j) = j := by
  apply Fin.ext; simp only [half, ev]; omega

theorem half_od (j : Fin 2048) : half (od j) = j := by
  apply Fin.ext; simp only [half, od]; omega

theorem grp_col (g : Fin 32) (l : Fin 128) : grp (col g l) = g := by
  apply Fin.ext; simp only [grp, col]; omega

/-! ### Re-indexing the 4096 columns -/

/-- Σ_k f k = Σ_j f(2j) + Σ_j f(2j+1). -/
theorem sum_ev_od (f : Fin 4096 → ℝ) :
    ∑ k : Fin 4096, f k = ∑ j : Fin 2048, f (ev j) + ∑ j : Fin 2048, f (od j) := by
  rw [← Finset.sum_add_distrib]
  have h := Fintype.sum_equiv (finProdFinEquiv (m := 2048) (n := 2))
    (fun a : Fin 2048 × Fin 2 => f (finProdFinEquiv a)) f (fun _ => rfl)
  rw [← h, Fintype.sum_prod_type]
  refine Finset.sum_congr rfl fun j _ => ?_
  rw [Fin.sum_univ_two]
  have e0 : (finProdFinEquiv (j, (0 : Fin 2)) : Fin 4096) = ev j := by
    apply Fin.ext; simp [finProdFinEquiv, ev]
  have e1 : (finProdFinEquiv (j, (1 : Fin 2)) : Fin 4096) = od j := by
    apply Fin.ext; simp [finProdFinEquiv, od]; omega
  rw [e0, e1]

/-- Σ_k f k = Σ_g Σ_l f(128g + l). -/
theorem sum_col (f : Fin 4096 → ℝ) :
    ∑ k : Fin 4096, f k = ∑ g : Fin 32, ∑ l : Fin 128, f (col g l) := by
  have h := Fintype.sum_equiv (finProdFinEquiv (m := 32) (n := 128))
    (fun a : Fin 32 × Fin 128 => f (finProdFinEquiv a)) f (fun _ => rfl)
  rw [← h, Fintype.sum_prod_type]
  refine Finset.sum_congr rfl fun g _ => ?_
  refine Finset.sum_congr rfl fun l _ => ?_
  have e : (finProdFinEquiv (g, l) : Fin 4096) = col g l := by
    apply Fin.ext; simp [finProdFinEquiv, col]; omega
  rw [e]

/-! ### The identity over the reals -/

theorem real_identity (X : Fin 4096 → ℝ) (L H : Fin 2048 → ℝ) (S Z : Fin 32 → ℝ) (B : ℝ) :
    ((∑ j : Fin 2048, X (ev j) * (L j * S ⟨j.val / 64, by omega⟩)
        + ∑ j : Fin 2048, X (od j) * (H j * S ⟨j.val / 64, by omega⟩))
      - ∑ g : Fin 32, (0 + ∑ l : Fin 128, X (col g l)) * (S g * Z g)) + B
    = (∑ k : Fin 4096, X k * (((if k.val % 2 = 0 then L (half k) else H (half k)) - Z (grp k)) * S (grp k))) + B := by
  have h1 : ∑ k : Fin 4096, X k * (((if k.val % 2 = 0 then L (half k) else H (half k)) - Z (grp k)) * S (grp k))
      = ∑ k : Fin 4096, X k * ((if k.val % 2 = 0 then L (half k) else H (half k)) * S (grp k))
        - ∑ k : Fin 4096, X k * (Z (grp k) * S (grp k)) := by
    rw [← Finset.sum_sub_distrib]
    refine Finset.sum_congr rfl fun k _ => ?_
    ring
  have h2 : ∑ k : Fin 4096, X k * ((if k.val % 2 = 0 then L (half k) else H (half k)) * S (grp k))
      = ∑ j : Fin 2048, X (ev j) * (L j * S ⟨j.val / 64, by omega⟩)
        + ∑ j : Fin 2048, X (od j) * (H j * S ⟨j.val / 64, by omega⟩) := by
    rw [sum_ev_od]
    refine congrArg₂ (· + ·) ?_ ?_
    · refine Finset.sum_congr rfl fun j _ => ?_
      have hc : (ev j).val % 2 = 0 := by simp only [ev]; omega
      rw [if_pos hc, half_ev, grp_ev]
    · refine Finset.sum_congr rfl fun j _ => ?_
      have hc : ¬ ((od j).val % 2 = 0) := by simp only [od]; omega
      rw [if_neg hc, half_od, grp_od]
  have h3 : ∑ k : Fin 4096, X k * (Z (grp k) * S (grp k))
      = ∑ g : Fin 32, (0 + ∑ l : Fin 128, X (col g l)) * (S g * Z g) := by
    rw [sum_col]
    refine Finset.sum_congr rfl fun g _ => ?_
    rw [zero_add, Finset.sum_mul]
    refine Finset.sum_congr rfl fun l _ => ?_
    rw [grp_col]
    ring
  rw [h1, h2, h3]

/-! ### From the reals to the extended reals -/

theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The indicator sum picks the scale of the group of packed column j. -/
theorem sum_oneHot (s : (⟨2, ![11008, 32]⟩ : Shape).Idx → EReal) (n : Fin 11008) (j : Fin 2048) :
    ∑ g : Fin 32, s (ix2 n g) * oneHot g j = s (ix2 n (⟨j.val / 64, by omega⟩ : Fin 32)) := by
  rw [Finset.sum_eq_single (⟨j.val / 64, by omega⟩ : Fin 32)]
  · simp [oneHot]
  · intro g _ hg
    have hne : ¬ (j.val / 64 = g.val) := fun h => hg (Fin.ext h.symm)
    simp [oneHot, hne]
  · intro h; exact absurd (Finset.mem_univ _) h

/-- The low nibble as a real. -/
def loR (q : (⟨2, ![11008, 2048]⟩ : Shape).Idx → BitVec 32) (n : Fin 11008) (j : Fin 2048) : ℝ :=
  ((((q (ix2 n j)) &&& 15#32).toInt : ℝ))
/-- The high nibble as a real. -/
def hiR (q : (⟨2, ![11008, 2048]⟩ : Shape).Idx → BitVec 32) (n : Fin 11008) (j : Fin 2048) : ℝ :=
  (((((q (ix2 n j)).sshiftRight' 4#32) &&& 15#32).toInt : ℝ))

theorem lo_eq (q : (⟨2, ![11008, 2048]⟩ : Shape).Idx → BitVec 32) (n : Fin 11008) (j : Fin 2048) :
    lo q n j = ((loR q n j : ℝ) : EReal) := rfl
theorem hi_eq (q : (⟨2, ![11008, 2048]⟩ : Shape).Idx → BitVec 32) (n : Fin 11008) (j : Fin 2048) :
    hi q n j = ((hiR q n j : ℝ) : EReal) := rfl
theorem nib_eq (q : (⟨2, ![11008, 2048]⟩ : Shape).Idx → BitVec 32) (n : Fin 11008) (k : Fin 4096) :
    nib q n k = (((if k.val % 2 = 0 then loR q n (half k) else hiR q n (half k)) : ℝ) : EReal) := by
  unfold nib
  split_ifs <;> rfl

theorem kerForm_eq_refForm (x : (⟨2, ![512, 4096]⟩ : Shape).Idx → EReal) (q : (⟨2, ![11008, 2048]⟩ : Shape).Idx → BitVec 32)
    (s z : (⟨2, ![11008, 32]⟩ : Shape).Idx → EReal) (b : (⟨1, ![11008]⟩ : Shape).Idx → EReal)
    (hx : ∀ i, ∃ r : ℝ, x i = (r : EReal)) (hs : ∀ i, ∃ r : ℝ, s i = (r : EReal)) (hz : ∀ i, ∃ r : ℝ, z i = (r : EReal))
    (hb : ∀ i, ∃ r : ℝ, b i = (r : EReal)) (p : Fin 512) (n : Fin 11008) :
    kerForm (xEven x) (xOdd x) (xGroupSum x) ohArr q s z b p n = refForm x q s z b p n := by
  choose xr hxr using hx
  choose sr hsr using hs
  choose zr hzr using hz
  choose br hbr using hb
  have key := congrArg (fun r : ℝ => (r : EReal))
    (real_identity (fun k => xr (ix2 p k)) (fun j => loR q n j) (fun j => hiR q n j)
      (fun g => sr (ix2 n g)) (fun g => zr (ix2 n g)) (br (ix1 n)))
  simp only [EReal.coe_add, EReal.coe_mul, EReal.coe_sub, coe_sum, EReal.coe_zero] at key
  unfold kerForm refForm
  simp only [xEven_apply, xOdd_apply, xGroupSum_apply, ohArr_apply, sum_oneHot, lo_eq, hi_eq, nib_eq]
  simp only [hxr, hsr, hzr, hbr]
  exact key

end Cert.Dequant

end
-- ==== Proof.Finite.lean ====
/-
  The precondition read back: where the printed predicate is all ones, every entry of the four float inputs is a real number
  (|v| < +inf on the extended reals leaves out exactly the two infinities).
-/
import proofs.«415044_j4870492913664_3_alg».proof.Pre_finite_inputs
import proofs.«415044_j4870492913664_3_alg».proof.Proof.Gen.Pre_finite_inputs
import Idealize.ShloMosaic.PureOps.Ideal
import Idealize.ShloMosaic.Lib.ValueIdx
import Idealize.ShloMosaic.Lib.ReduceAll

noncomputable section

namespace Cert.Dequant

open Idealize.ShloMosaic Idealize.ShloMosaic.ValueIdx

/-- The 32-bit pattern with all-ones exponent, zero fraction and clear sign denotes the top element +inf. -/
theorem ofBits_inf_f32 : Ideal.ofBits .f32 0x7F800000#32 = (⊤ : EReal) := by
  simp [Ideal.ofBits, Ideal.ieee]

/-- On the extended reals |v| = max v (-v) is below +inf only at a real number: at -inf and at +inf it is +inf. -/
theorem real_of_abs_lt_top (v : EReal) (h : max v (-v) < ⊤) : ∃ r : ℝ, v = (r : EReal) := by
  induction v using EReal.rec with
  | bot => simp at h
  | coe r => exact ⟨r, rfl⟩
  | top => simp at h

/-- An ordered less-than comparison whose result bit is 1 holds as an inequality. -/
theorem lt_of_cmp_olt (a b : EReal) (h : Ideal.cmp .olt a b = 1#1) : a < b := by
  by_contra hn
  simp [Ideal.cmp, hn] at h

/-- One entry of the array |v| < +inf (the scalar +inf read at every index) that is 1: that entry of v is a real number. -/
theorem real_of_cmp {T : Shape} (hb : Cert.Pre_finite_inputs.S_.BroadcastsInDim T (![] : Fin 0 → Fin T.rank))
    (v : FVec Ideal T .f32) (i : T.Idx)
    (h : cmpf .olt (Host.absf v)
      (broadcastInDim T ![] hb (constant Cert.Pre_finite_inputs.S_ .f32 0x7F800000#32)) i = 1#1) :
    ∃ r : ℝ, v i = (r : EReal) := by
  refine real_of_abs_lt_top (v i) ?_
  -- entrywise the comparison is |v i| < (the value of the +inf pattern)
  have h' : Ideal.cmp .olt (max (v i) (-(v i))) (Ideal.ofBits .f32 0x7F800000#32) = 1#1 := h
  rw [ofBits_inf_f32] at h'
  exact lt_of_cmp_olt _ _ h'

theorem finite_of_pre [Cert.Pre_finite_inputs.Facts]
    (x : FVec Ideal Cert.Pre_finite_inputs.S512x4096 .f32) (q : IVec Cert.Pre_finite_inputs.S11008x2048 32)
    (s z : FVec Ideal Cert.Pre_finite_inputs.S11008x32 .f32) (b : FVec Ideal Cert.Pre_finite_inputs.S11008 .f32)
    (h : Cert.Pre_finite_inputs.fn (F := Ideal) x q s z b = fun _ => 1#1) :
    (∀ i, ∃ r : ℝ, x i = (r : EReal)) ∧ (∀ i, ∃ r : ℝ, s i = (r : EReal)) ∧ (∀ i, ∃ r : ℝ, z i = (r : EReal))
      ∧ (∀ i, ∃ r : ℝ, b i = (r : EReal)) := by
  -- the rank-0 result has a single index
  haveI : Subsingleton Cert.Pre_finite_inputs.S_.Idx := ⟨fun a c => funext fun d => d.elim0⟩
  have h0 := congrFun h ValueIdx.ix0
  dsimp only [Cert.Pre_finite_inputs.fn, Cert.Pre_finite_inputs.fn_part1] at h0
  -- the predicate is ((all x ∧ all s) ∧ all z) ∧ all b: each conjunct is 1
  obtain ⟨h123, h4⟩ := IntOp.andi_eq_one.1 h0
  obtain ⟨h12, h3⟩ := IntOp.andi_eq_one.1 h123
  obtain ⟨h1, h2⟩ := IntOp.andi_eq_one.1 h12
  -- a conjunction over all entries that is 1 has a 1 at every entry
  refine ⟨fun i => ?_, fun i => ?_, fun i => ?_, fun i => ?_⟩
  · exact real_of_cmp _ x i (Host.reduce_andi_all _ _ _ _ _ h1 i)
  · exact real_of_cmp _ s i (Host.reduce_andi_all _ _ _ _ _ h2 i)
  · exact real_of_cmp _ z i (Host.reduce_andi_all _ _ _ _ _ h3 i)
  · exact real_of_cmp _ b i (Host.reduce_andi_all _ _ _ _ _ h4 i)

end Cert.Dequant

end
-- ==== Proof.lean ====
/- The certificate of a 4-bit grouped-quantization linear layer: y = x · Wᵀ + b with W[n, k] = (nibble_k(q[n, k/2]) − z[n, k/128]) · s[n, k/128].

   The reference dequantizes W whole and contracts once over the 4096 columns. The kernel, on 43 column blocks of the
   output, contracts the even columns of x against low nibble × scale and the odd columns against high nibble × scale (the
   scale expanded from 32 groups to 2048 packed columns by a product with the group indicator), and subtracts the zero point
   as a rank-32 term Σ_g (Σ_{k in group g} x[p, k]) · s[n, g] · z[n, g]. Over finite reals these agree: (q − z)·s = q·s − z·s,
   summed and re-indexed (Proof/Algebra.lean); finiteness of the float inputs is the precondition (Proof/Finite.lean).
   Proof/Payload.lean reads one grid point's arithmetic at an entry, Proof/HostGlue.lean the four operands the host prepares,
   Proof/Blocks.lean tiles the output, Proof/RefSide.lean reads the reference at an entry. The three frames are the generated
   ones (the reference's is its run with the result dropped); no operation was rewritten by the idealization. -/
import proofs.«415044_j4870492913664_3_alg».proof.Defs
import proofs.«415044_j4870492913664_3_alg».proof.Proof.Gen.Kernel
import proofs.«415044_j4870492913664_3_alg».proof.Proof.Gen.Kernel.Skeleton
import proofs.«415044_j4870492913664_3_alg».proof.Proof.Gen.Kernel.Launch
import proofs.«415044_j4870492913664_3_alg».proof.Proof.Gen.Kernel.Points
import proofs.«415044_j4870492913664_3_alg».proof.Proof.Gen.Kernel.Frame
import proofs.«415044_j4870492913664_3_alg».proof.Proof.Gen.KernelIdeal
import proofs.«415044_j4870492913664_3_alg».proof.Proof.Gen.KernelIdeal.Skeleton
import proofs.«415044_j4870492913664_3_alg».proof.Proof.Gen.KernelIdeal.Launch
import proofs.«415044_j4870492913664_3_alg».proof.Proof.Gen.KernelIdeal.Points
import proofs.«415044_j4870492913664_3_alg».proof.Proof.Gen.KernelIdeal.Frame
import proofs.«415044_j4870492913664_3_alg».proof.Proof.Gen.ReferenceIdeal
import proofs.«415044_j4870492913664_3_alg».proof.Proof.Gen.Pre_finite_inputs
import proofs.«415044_j4870492913664_3_alg».proof.Proof.Gen.KernelIdeal.Value
import proofs.«415044_j4870492913664_3_alg».proof.Proof.Gen.ReferenceIdeal.Run
import proofs.«415044_j4870492913664_3_alg».proof.Proof.Gen.ReferenceIdeal.Read
import proofs.«415044_j4870492913664_3_alg».proof.Proof.Blocks
import proofs.«415044_j4870492913664_3_alg».proof.Proof.RefSide
import proofs.«415044_j4870492913664_3_alg».proof.Proof.Algebra
import proofs.«415044_j4870492913664_3_alg».proof.Proof.Finite
import Idealize.ShloMosaic.Adequacy
import Idealize.ShloMosaic.Init

noncomputable section

namespace Cert.Proof

open Idealize.ShloMosaic Idealize.SL.Sem Idealize.ShloMosaic.ValueIdx Cert.Dequant

/-- The common result: the reference's closed form at every output index. -/
def resArr (x : (⟨2, ![512, 4096]⟩ : Shape).Idx → EReal) (q : (⟨2, ![11008, 2048]⟩ : Shape).Idx → BitVec 32)
    (s z : (⟨2, ![11008, 32]⟩ : Shape).Idx → EReal) (b : (⟨1, ![11008]⟩ : Shape).Idx → EReal) :
    (⟨2, ![512, 11008]⟩ : Shape).Idx → EReal :=
  fun i => refForm x q s z b ⟨(i 0).val, idx2_lt0 i⟩ ⟨(i 1).val, idx2_lt1 i⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's run ends at the closed form. -/
theorem ref_eq (x0 : (⟨Cert.ReferenceIdeal.S512x4096, .f32⟩ : BufTy).Contents (Elt Ideal))
    (x1 : (⟨Cert.ReferenceIdeal.S11008x2048, .i32⟩ : BufTy).Contents (Elt Ideal))
    (x2 x3 : (⟨Cert.ReferenceIdeal.S11008x32, .f32⟩ : BufTy).Contents (Elt Ideal))
    (x4 : (⟨Cert.ReferenceIdeal.S11008, .f32⟩ : BufTy).Contents (Elt Ideal)) :
    Cert.ReferenceIdeal.Read.val_main_v22 (F := Ideal) x0 x1 x2 x3 x4 = resArr x0 x1 x2 x3 x4 := by
  funext i
  obtain ⟨p, n, rfl⟩ : ∃ (p : Fin 512) (n : Fin 11008), i = ix2 p n := ⟨i 0, i 1, eq_ix2 i⟩
  exact ref_apply x0 x1 x2 x3 x4 p n

/-- Both idealized programs end with the reference's closed form of the shared arguments: the kernel's tiled form equals it
    where the float inputs are finite, and the reference's run is it. -/
theorem algebraic : Cert.algebraic_KernelIdeal_ReferenceIdeal := by
  intro m ρ m' ρ' hpre hagree
  refine ⟨fun c => resArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.Dequant.kernel_run m ρ)
    obtain ⟨hx, hs, hz, hb⟩ := finite_of_pre _ _ _ _ _ (hpre c)
    funext i
    exact kerForm_eq_refForm _ _ _ _ _ hx hs hz hb _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, ref_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
